-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x160x320x32 : Shape := ⟨4, ![16, 160, 320, 32]⟩
abbrev S32x2 : Shape := ⟨2, ![32, 2]⟩
abbrev S_ : Shape := ⟨0, ![]⟩

class Facts : Prop where
  bcast_S_S16x160x320x32 : S_.BroadcastsInDim S16x160x320x32 (![] : Fin 0 → Fin S16x160x320x32.rank)
  reducesTo_S16x160x320x32_S_d0_1_2_3 : S16x160x320x32.ReducesTo [0, 1, 2, 3] S_
  h_S_ : 0 < S_.numel
  bcast_S_S32x2 : S_.BroadcastsInDim S32x2 (![] : Fin 0 → Fin S32x2.rank)
  reducesTo_S32x2_S_d0_1 : S32x2.ReducesTo [0, 1] S_

variable [Facts]

def fn {F : FTy → Type} [FloatOps F] (main_arg0 : FVec F S16x160x320x32 .f32) (main_arg1 : FVec F S32x2 .f32) : IVec S_ 1 :=
  let main_v0 : FVec F S16x160x320x32 .f32 := Host.absf main_arg0
  let main_cst : FVec F S_ .f32 := constant S_ .f32 0x7F800000#32
  let main_v1 : FVec F S16x160x320x32 .f32 := broadcastInDim S16x160x320x32 ![] bcast_S_S16x160x320x32 main_cst
  let main_v2 : IVec S16x160x320x32 1 := cmpf .olt main_v0 main_v1
  let main_c : IVec S_ 1 := constantI S_ 1 1#1
  let main_v3 : IVec S_ 1 := (fun x v => Host.reduce IntOp.andi x v reducesTo_S16x160x320x32_S_d0_1_2_3 h_S_) main_v2 main_c
  let main_v4 : FVec F S32x2 .f32 := Host.absf main_arg1
  let main_cst_0 : FVec F S_ .f32 := constant S_ .f32 0x7F800000#32
  let main_v5 : FVec F S32x2 .f32 := broadcastInDim S32x2 ![] bcast_S_S32x2 main_cst_0
  let main_v6 : IVec S32x2 1 := cmpf .olt main_v4 main_v5
  let main_c_1 : IVec S_ 1 := constantI S_ 1 1#1
  let main_v7 : IVec S_ 1 := (fun x v => Host.reduce IntOp.andi x v reducesTo_S32x2_S_d0_1 h_S_) main_v6 main_c_1
  let main_v8 : IVec S_ 1 := andi main_v3 main_v7
  main_v8
-- ==== Kernel.lean ====
abbrev S16x160x320x32 : Shape := ⟨4, ![16, 160, 320, 32]⟩
abbrev S32x2 : Shape := ⟨2, ![32, 2]⟩
abbrev S_ : Shape := ⟨0, ![]⟩
abbrev S32 : Shape := ⟨1, ![32]⟩
abbrev S32x1 : Shape := ⟨2, ![32, 1]⟩
abbrev S64 : Shape := ⟨1, ![64]⟩
abbrev S32x32 : Shape := ⟨2, ![32, 32]⟩
abbrev S32x32x2 : Shape := ⟨3, ![32, 32, 2]⟩
abbrev S32x64 : Shape := ⟨2, ![32, 64]⟩
abbrev S1x64 : Shape := ⟨2, ![1, 64]⟩
abbrev S16x160x320x64 : Shape := ⟨4, ![16, 160, 320, 64]⟩
abbrev S2x8x320x32 : Shape := ⟨4, ![2, 8, 320, 32]⟩
abbrev S2x8x320x64 : Shape := ⟨4, ![2, 8, 320, 64]⟩
abbrev S5120x32 : Shape := ⟨2, ![5120, 32]⟩
abbrev S5120x64 : Shape := ⟨2, ![5120, 64]⟩
abbrev S16x160x320x32x2 : Shape := ⟨5, ![16, 160, 320, 32, 2]⟩

abbrev nBuf : Space → Nat
  | .hbm => 23
  | .vmem => 5
  | .smem => 0
  | _ => 0

abbrev bufTy : (tb : Table) → Fin (tcTables nBuf tb) → BufTy
  | .hbm, ⟨0, _⟩ => ⟨S16x160x320x32, .f32⟩
  | .hbm, ⟨1, _⟩ => ⟨S32x2, .f32⟩
  | .hbm, ⟨2, _⟩ => ⟨S32x2, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S32x2, .f32⟩
  | .hbm, ⟨7, _⟩ => ⟨S32x2, .f32⟩
  | .hbm, ⟨8, _⟩ => ⟨S64, .f32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S32x32, .f32⟩
  | .hbm, ⟨16, _⟩ => ⟨S32x32x2, .f32⟩
  | .hbm, ⟨17, _⟩ => ⟨S32x64, .f32⟩
  | .hbm, ⟨18, _⟩ => ⟨S1x64, .f32⟩
  | .hbm, ⟨19, _⟩ => ⟨S32x64, .f32⟩
  | .hbm, ⟨20, _⟩ => ⟨S32x64, .f32⟩
  | .hbm, ⟨21, _⟩ => ⟨S16x160x320x64, .f32⟩
  | .hbm, ⟨22, _⟩ => ⟨S16x160x320x32x2, .f32⟩
  | .local _ .vmem, ⟨0, _⟩ => ⟨S2x8x320x32, .f32⟩
  | .local _ .vmem, ⟨1, _⟩ => ⟨S2x8x320x32, .f32⟩
  | .local _ .vmem, ⟨2, _⟩ => ⟨S32x64, .f32⟩
  | .local _ .vmem, ⟨3, _⟩ => ⟨S2x8x320x64, .f32⟩
  | .local _ .vmem, ⟨4, _⟩ => ⟨S2x8x320x64, .f32⟩
  | _, _ => ⟨S16x160x320x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 20], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x8x320x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x320x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S32x2_S32_d1 : S32x2.ReducesTo [1] S32
  h_S_ : 0 < S_.numel
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  shapeCasts_S32x2_S64 : S32x2.ShapeCasts S64
  bcast_S_S32x32 : S_.BroadcastsInDim S32x32 (![] : Fin 0 → Fin S32x32.rank)
  bcast_S32x32_S32x32x2_0_1 : S32x32.BroadcastsInDim S32x32x2 (![0, 1] : Fin 2 → Fin S32x32x2.rank)
  shapeCasts_S32x32x2_S32x64 : S32x32x2.ShapeCasts S32x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  inb_S2x8x320x32_S2x8x320x32_0_0_0_0 : ∀ a, (![0, 0, 0, 0] : Fin 4 → Nat) a + S2x8x320x32.size a ≤ S2x8x320x32.size a
  h_S2x8x320x32 : 0 < S2x8x320x32.numel
  shapeCasts_S2x8x320x32_S5120x32 : S2x8x320x32.ShapeCasts S5120x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S5120x64_S2x8x320x64 : S5120x64.ShapeCasts S2x8x320x64
  inb_S2x8x320x64_S2x8x320x64_0_0_0_0 : ∀ a, (![0, 0, 0, 0] : Fin 4 → Nat) a + S2x8x320x64.size a ≤ S2x8x320x64.size a
  h_S2x8x320x64 : 0 < S2x8x320x64.numel
  shapeCasts_S16x160x320x64_S16x160x320x32x2 : S16x160x320x64.ShapeCasts S16x160x320x32x2
  dot_S5120x32_S32x64_S5120x64_1_0_0_1_n_n_wf : DotDims.WF S5120x32 S32x64 S5120x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x320x32.size a ≤ S16x160x320x32.size a
  hwx0_0 : ∀ i : grid0.Coords, EltTy.bits .f32 = 32 ∨ (Rect.block (s := S16x160x320x32) S2x8x320x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x320x64.size a ≤ S16x160x320x64.size a
  hwx0_2 : ∀ i : grid0.Coords, EltTy.bits .f32 = 32 ∨ (Rect.block (s := S16x160x320x64) S2x8x320x64.size (cc0_transform_2 i) (hinb0_2 i)).WholeWords (EltTy.packing .f32)

variable [Facts₀]

def dot_S5120x32_S32x64_S5120x64_1_0_0_1_n_n : DotDims S5120x32 S32x64 S5120x64 where
  lhsContracting := [1]
  rhsContracting := [0]
  lhsNonContracting := [0]
  rhsNonContracting := [1]
  lhsBatch := []
  rhsBatch := []
  wf := dot_S5120x32_S32x64_S5120x64_1_0_0_1_n_n_wf

abbrev win0_0 : Pipeline.Window sig grid0 :=
  Pipeline.Window.ofSpec (Memref.whole main_arg0) S2x8x320x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2x8x320x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x160x320x32 : Shape := ⟨4, ![16, 160, 320, 32]⟩
abbrev S32x2 : Shape := ⟨2, ![32, 2]⟩
abbrev S_ : Shape := ⟨0, ![]⟩
abbrev S32 : Shape := ⟨1, ![32]⟩
abbrev S32x1 : Shape := ⟨2, ![32, 1]⟩
abbrev S16x160x320x32x1 : Shape := ⟨5, ![16, 160, 320, 32, 1]⟩
abbrev S1x1x1x32x2 : Shape := ⟨5, ![1, 1, 1, 32, 2]⟩
abbrev S16x160x320x32x2 : Shape := ⟨5, ![16, 160, 320, 32, 2]⟩

abbrev nBuf : Space → Nat
  | .hbm => 13
  | .vmem => 0
  | .smem => 0
  | _ => 0

abbrev bufTy : (tb : Table) → Fin (tcTables nBuf tb) → BufTy
  | .hbm, ⟨0, _⟩ => ⟨S16x160x320x32, .f32⟩
  | .hbm, ⟨1, _⟩ => ⟨S32x2, .f32⟩
  | .hbm, ⟨2, _⟩ => ⟨S32x2, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S32x2, .f32⟩
  | .hbm, ⟨7, _⟩ => ⟨S32x2, .f32⟩
  | .hbm, ⟨8, _⟩ => ⟨S16x160x320x32x1, .f32⟩
  | .hbm, ⟨9, _⟩ => ⟨S1x1x1x32x2, .f32⟩
  | .hbm, ⟨10, _⟩ => ⟨S16x160x320x32x2, .f32⟩
  | .hbm, ⟨11, _⟩ => ⟨S16x160x320x32x2, .f32⟩
  | .hbm, ⟨12, _⟩ => ⟨S16x160x320x32x2, .f32⟩
  | _, _ => ⟨S16x160x320x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S32x2_S32_d1 : S32x2.ReducesTo [1] S32
  h_S_ : 0 < S_.numel
  bcast_S32_S32x1_0 : S32.BroadcastsInDim S32x1 (![0] : Fin 1 → Fin S32x1.rank)
  bcast_S32x1_S32x2_0_1 : S32x1.BroadcastsInDim S32x2 (![0, 1] : Fin 2 → Fin S32x2.rank)
  bcast_S16x160x320x32_S16x160x320x32x1_0_1_2_3 : S16x160x320x32.BroadcastsInDim S16x160x320x32x1 (![0, 1, 2, 3] : Fin 4 → Fin S16x160x320x32x1.rank)
  bcast_S32x2_S1x1x1x32x2_3_4 : S32x2.BroadcastsInDim S1x1x1x32x2 (![3, 4] : Fin 2 → Fin S1x1x1x32x2.rank)
  bcast_S16x160x320x32x1_S16x160x320x32x2_0_1_2_3_4 : S16x160x320x32x1.BroadcastsInDim S16x160x320x32x2 (![0, 1, 2, 3, 4] : Fin 5 → Fin S16x160x320x32x2.rank)
  bcast_S1x1x1x32x2_S16x160x320x32x2_0_1_2_3_4 : S1x1x1x32x2.BroadcastsInDim S16x160x320x32x2 (![0, 1, 2, 3, 4] : Fin 5 → Fin S16x160x320x32x2.rank)

variable [Facts₀]

class Facts : Prop extends Facts₀ where

variable [Facts]
-- ==== Proof.KernelHost.lean ====
/-
  What the kernel's host lines compute before the pallas_call, read entry by entry over the extended reals.

  From  β : [32, 2]  the host forms  u = β² / Σ_c β²  (row-normalised squares; `normSq`), flattens it to a row of 64
  numbers  u_flat[2p + q] = u[p, q] , and builds the 32 × 64 "expansion" matrix
        M[d, 2p + q] = E[d, p] · u[p, q] ,
  where  E  is the 32 × 32 identity made by comparing a row counter with a column counter and converting the one-bit
  answer to a float:  E[d, p] = 1  if  d = p  and  0  otherwise (`eye_apply`). The matrix is laid out by repeating each
  column of  E  twice (a new trailing axis of extent 2, then a row-major re-reading of [32, 32, 2] as [32, 64]) and
  multiplying, entry by entry, with  u_flat  repeated down the 32 rows (`expandMat_apply`).
-/
import proofs.«159001_j87582973100612_1_alg».proof.Proof.Gen.KernelIdeal.Frame
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

/-- The row-normalised squares  u[p, q] = β[p, q]² / (0 + Σ_q' β[p, q']²) , as the host spells them: the square, the
    row sum, the sum laid back over the two columns, the quotient. -/
def normSq (β : FVec Ideal S32x2 .f32) : FVec Ideal S32x2 .f32 :=
  Host.divf (mulf β β)
    (broadcastInDim S32x2 ![0, 1] bcast_S32x1_S32x2_0_1
      (broadcastInDim S32x1 ![0] bcast_S32_S32x1_0
        (Host.reduceAdd (mulf β β) (constant S_ .f32 0x00000000#32) reducesTo_S32x2_S32_d1 h_S_)))

/-- The 32 × 32 identity as the host makes it: (row counter + 0) compared for equality with the column counter, the
    one-bit answer converted to a float. -/
def eyeMat : FVec Ideal S32x32 .f32 :=
  uitofp .f32
    (cmpi .eq (addi (iotaInDim S32x32 32 0) (broadcastInDim S32x32 ![] bcast_S_S32x32 (constantI S_ 32 0#32)))
      (iotaInDim S32x32 32 1))

/-- The expansion of a 32 × 32 matrix  E  by a [32, 2] array  u : each column of  E  repeated twice, times  u  flattened
    and repeated down the rows. -/
def expandMat (E : FVec Ideal S32x32 .f32) (u : FVec Ideal S32x2 .f32) : FVec Ideal S32x64 .f32 :=
  mulf
    (shapeCast S32x64 (broadcastInDim S32x32x2 ![0, 1] bcast_S32x32_S32x32x2_0_1 E) shapeCasts_S32x32x2_S32x64)
    (broadcastInDim S32x64 ![0, 1] bcast_S1x64_S32x64_0_1
      (broadcastInDim S1x64 ![1] bcast_S64_S1x64_1 (shapeCast S64 u shapeCasts_S32x2_S64)))

/-- Two counters below 32, as 32-bit words, are equal words exactly when they are equal numbers (adding the zero word
    changes nothing): decided over the 32 × 32 pairs. -/
theorem word_eq : ∀ d p : Fin 32,
    BitVec.ofBool (BitVec.ofNat 32 d.val + 0#32 == BitVec.ofNat 32 p.val) = if d = p then 1#1 else 0#1 := by
  decide +kernel

/-- E[d, p] = 1 if d = p, else 0. -/
theorem eye_apply (d p : Fin 32) : eyeMat (ix2 d p) = if d = p then (1 : EReal) else 0 := by
  unfold eyeMat
  show (((IntOp.cmpi .eq
      (IntOp.addi (iotaInDim S32x32 32 0 (ix2 d p)) (broadcastInDim S32x32 ![] bcast_S_S32x32 (constantI S_ 32 0#32) (ix2 d p)))
      (iotaInDim S32x32 32 1 (ix2 d p))).toNat : ℝ) : EReal) = _
  rw [broadcastInDim_scalar_apply, iotaInDim_apply, iotaInDim_apply]
  show (((BitVec.ofBool (BitVec.ofNat 32 d.val + 0#32 == BitVec.ofNat 32 p.val)).toNat : ℝ) : EReal) = _
  rw [word_eq d p]
  by_cases h : d = p
  · rw [if_pos h, if_pos h]; simp
  · rw [if_neg h, if_neg h]; simp

/-- M[d, 2p + q] = E[d, p] · u[p, q], for any 32 × 32 matrix E. -/
theorem expandMat_apply (E : FVec Ideal S32x32 .f32) (u : FVec Ideal S32x2 .f32) (d p : Fin 32) (q : Fin 2) (k : Fin 64)
    (hk : k.val = p.val * 2 + q.val) :
    expandMat E u (ix2 d k) = E (ix2 d p) * u (ix2 p q) := by
  unfold expandMat
  rw [mulf_apply]
  -- the first factor: [32, 64] read row-major as [32, 32, 2], the trailing axis a repetition
  have e1 : shapeCast S32x64 (broadcastInDim S32x32x2 ![0, 1] bcast_S32x32_S32x32x2_0_1 E) shapeCasts_S32x32x2_S32x64 (ix2 d k)
      = E (ix2 d p) := by
    refine (shapeCast_apply _ shapeCasts_S32x32x2_S32x64 (ix2 d k) (ix3 d p q) ?_).trans ?_
    · rw [Shape.rowMajor_val_three, Shape.rowMajor_val_two]
      show (d.val * 32 + p.val) * 2 + q.val = d.val * 64 + k.val
      omega
    exact broadcastInDim_apply _ bcast_S32x32_S32x32x2_0_1 E (ix3 d p q) (ix2 d p) (fun a => match a with
      | ⟨0, _⟩ => by show d.val = if (32 : Nat) = 1 then 0 else d.val; rw [if_neg (by decide)]
      | ⟨1, _⟩ => by show p.val = if (32 : Nat) = 1 then 0 else p.val; rw [if_neg (by decide)])
  -- the second factor: the flattened u at column k, whatever the row
  have e2 : broadcastInDim S32x64 ![0, 1] bcast_S1x64_S32x64_0_1
        (broadcastInDim S1x64 ![1] bcast_S64_S1x64_1 (shapeCast S64 u shapeCasts_S32x2_S64)) (ix2 d k) = u (ix2 p q) := by
    refine (broadcastInDim_apply _ bcast_S1x64_S32x64_0_1 _ (ix2 d k) (ix2 (0 : Fin 1) k) (fun a => match a with
      | ⟨0, _⟩ => by show 0 = if (1 : Nat) = 1 then 0 else d.val; rw [if_pos rfl]
      | ⟨1, _⟩ => by show k.val = if (64 : Nat) = 1 then 0 else k.val; rw [if_neg (by decide)])).trans ?_
    refine (broadcastInDim_apply _ bcast_S64_S1x64_1 _ (ix2 (0 : Fin 1) k) (ix1 k) (fun a => match a with
      | ⟨0, _⟩ => by show k.val = if (64 : Nat) = 1 then 0 else k.val; rw [if_neg (by decide)])).trans ?_
    refine shapeCast_apply u shapeCasts_S32x2_S64 (ix1 k) (ix2 p q) ?_
    rw [Shape.rowMajor_val_two, Shape.rowMajor_val_one]
    show p.val * 2 + q.val = k.val
    omega
  rw [e1, e2]

variable (m : (ℓ : Loc nD τ sig) → Buf (Elt Ideal) ℓ)

set_option maxHeartbeats 1600000 in
/-- The array the pallas_call receives as its second operand is the expansion of the identity by  u = normSq β . -/
theorem V_main_v16 (c : Dev nD) :
    V m c main_v16 = expandMat eyeMat (normSq (m ((c : Thread nD τ).loc main_arg1))) := by
  show StableHlo.after hostOps0 (fun b => m (c, b)) (Proc.devRef .tc main_v16) = _
  after_results
  rfl

end Cert.KernelIdeal.HostSide

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.KernelPayload.lean ====
/-
  What one run of the kernel body stores, read entry by entry over the extended reals.

  The body loads its input block  x0 : [2, 8, 320, 32]  and the whole matrix  x1 : [32, 64] , reads the block row-major
  as 5120 rows of 32, multiplies on the matrix unit into a zero accumulator, and reads the 5120 × 64 product row-major
  as [2, 8, 320, 64]. Row  r = (a·8 + b)·320 + w  of the 5120 is the position (a, b, w) of the block, on both sides of
  the product, so the stored block at (a, b, w, k) is
        Σ_d x0[a, b, w, d] · x1[d, k] .
-/
import proofs.«159001_j87582973100612_1_alg».proof.Proof.Gen.KernelIdeal.Skeleton
import proofs.«159001_j87582973100612_1_alg».proof.Proof.LibDense
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- Position (a, b, w) of a [2, 8, 320] box as one of 5120 rows. -/
def row (a : Fin 2) (b : Fin 8) (w : Fin 320) : Fin 5120 :=
  ⟨(a.val * 8 + b.val) * 320 + w.val, by have := a.isLt; have := b.isLt; have := w.isLt; omega⟩

/-- The block read as 5120 rows, at (row (a, b, w), d), is the block at (a, b, w, d). -/
theorem rows_apply (x0 : Vec Ideal S2x8x320x32 .f32) (a : Fin 2) (b : Fin 8) (w : Fin 320) (d : Fin 32) :
    shapeCast S5120x32 x0 shapeCasts_S2x8x320x32_S5120x32 (ix2 (row a b w) d) = x0 (ix4 a b w d) := by
  refine shapeCast_apply x0 shapeCasts_S2x8x320x32_S5120x32 (ix2 (row a b w) d) (ix4 a b w d) ?_
  rw [Shape.rowMajor_val_four, Shape.rowMajor_val_two]
  show ((a.val * 8 + b.val) * 320 + w.val) * 32 + d.val = ((a.val * 8 + b.val) * 320 + w.val) * 32 + d.val
  rfl

/-- The stored block at (a, b, w, k) is  Σ_d x0[a, b, w, d] · x1[d, k] . -/
theorem pay_apply (x0 : Vec Ideal S2x8x320x32 .f32) (x1 : Vec Ideal S32x64 .f32)
    (a : Fin 2) (b : Fin 8) (w : Fin 320) (k : Fin 64) :
    k0_pay1 x0 x1 (ix4 a b w k) = ∑ d : Fin 32, x0 (ix4 a b w d) * x1 (ix2 d k) := by
  unfold k0_pay1
  -- the product read row-major as [2, 8, 320, 64]: entry (a, b, w, k) is entry (row (a, b, w), k) of the 5120 × 64
  refine (shapeCast_apply _ shapeCasts_S5120x64_S2x8x320x64 (ix4 a b w k) (ix2 (row a b w) k) ?_).trans ?_
  · rw [Shape.rowMajor_val_four, Shape.rowMajor_val_two]
    show ((a.val * 8 + b.val) * 320 + w.val) * 64 + k.val = ((a.val * 8 + b.val) * 320 + w.val) * 64 + k.val
    rfl
  -- the matrix is used as loaded
  rw [shapeCast_self]
  -- the product into zeros is the sum over the 32 columns of the left operand
  refine (Cert.Dense.matmul_zero_plain_apply dot_S5120x32_S32x64_S5120x64_1_0_0_1_n_n rfl rfl rfl rfl rfl rfl
    (some .fp32) (shapeCast S5120x32 x0 shapeCasts_S2x8x320x32_S5120x32) x1 (row a b w) k).trans ?_
  exact Finset.sum_congr rfl fun d _ => congrArg (· * x1 (ix2 d k)) (rows_apply x0 a b w d)

end Cert.KernelIdeal.Payload

end
-- ==== Proof.KernelBlocks.lean ====
/-
  From the blocks the grid points write back to the whole output array of the pallas_call.

  The grid has 8 × 20 points; point (g, h) reads the [2, 8, 320, 32] block of the input whose leading coordinates start
  at (2g, 8h), reads the whole 32 × 64 matrix, and writes the [2, 8, 320, 64] block of the output at the same place.
  What it writes is, at every entry, a row of the input times the matrix (KernelPayload), so every written block is the
  corresponding block of ONE function of the whole arrays,
        rowsTimes X M [b, h, w, k] = Σ_d X[b, h, w, d] · M[d, k] ,
  and since the 160 blocks tile the output, the output array ends holding that function.
-/
import proofs.«159001_j87582973100612_1_alg».proof.Proof.Gen.KernelIdeal.Frame
import proofs.«159001_j87582973100612_1_alg».proof.Proof.KernelPayload
import Idealize.ShloMosaic.Lib.Pipeline.Value
import Idealize.ShloMosaic.Lib.ValueIdx
import Idealize.ShloMosaic.Lib.Tactic

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- Every position (b, h, w) of the input, as a row of 32 numbers, times the matrix. -/
def rowsTimes (X : S16x160x320x32.Idx → EReal) (M : S32x64.Idx → EReal) : S16x160x320x64.Idx → EReal :=
  fun i => ∑ d : Fin 32, X (ix4 (i 0) (i 1) (i 2) d) * M (ix2 d (i 3))

/-- The printed index maps, decided over the 160 grid points: the input's block moves with the output's on the two
    leading axes and sits at 0 on the two trailing ones, the matrix's block is always the whole matrix, and the output's
    block indices stay inside 8 × 20. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 2) = 0 ∧ win0_1.index t (1 : Fin 2) = 0
    ∧ win0_2.index t (2 : Fin 4) = 0 ∧ win0_2.index t (3 : Fin 4) = 0
    ∧ win0_2.index t (0 : Fin 4) ≤ 7 ∧ win0_2.index t (1 : Fin 4) ≤ 19 :=
  (by decide +kernel : ∀ t : Fin grid0.N, _)

/-- Every one of the 8 × 20 block positions is some grid point's. -/
theorem index_onto : ∀ (q0 : Fin 8) (q1 : Fin 20), ∃ t : Fin cfg0.N, win0_2.index t = ![q0.val, q1.val, 0, 0] :=
  (by decide +kernel : ∀ (q0 : Fin 8) (q1 : Fin 20), ∃ t : Fin grid0.N, win0_2.index t = ![q0.val, q1.val, 0, 0])

/-- What point t writes back is block t of rowsTimes of the arrays as the pallas_call finds them. -/
theorem flushed_eq (c : Dev nD) (t : Fin cfg0.N) :
    (dats m 0 c).flushed 2 t
      = ((cfg0.win 2).blk t).view.read (Elt Ideal) (rowsTimes (V m c main_arg0) (V m c main_v16)) := by
  show (cfg0.win 2).cut (grid0.coords t) ((dats m 0 c).after 2 t) = _
  rw [after0_2]
  unfold out0_2
  rw [View.canon_unit_zero zeros4]
  simp only [View.ld_unit_zero (S := S2x8x320x32) zeros4, View.ld_unit_zero (S := S32x64) zeros2]
  obtain ⟨e0, e1, e2, e3, e4, e5, e6, e7, -, -⟩ := index_facts t
  show (k0_pay1 (iblk m c 0 t) (iblk m c 1 t) : S2x8x320x64.Idx → EReal)
    = fun j => rowsTimes (V m c main_arg0) (V m c main_v16) (((cfg0.win 2).blk t).view.emb j)
  funext j
  obtain ⟨a, b, w, k, rfl⟩ : ∃ (a : Fin 2) (b : Fin 8) (w : Fin 320) (k : Fin 64), j = ix4 a b w k :=
    ⟨j 0, j 1, j 2, j 3, eq_ix4 j⟩
  refine (Payload.pay_apply (iblk m c 0 t) (iblk m c 1 t) a b w k).trans ?_
  unfold rowsTimes
  refine Finset.sum_congr rfl fun d _ => ?_
  -- the input block's entry (a, b, w, d) is the array's entry under the output block's (a, b, w), column d
  have hX : (iblk m c 0 t : S2x8x320x32.Idx → EReal) (ix4 a b w d)
      = V m c main_arg0 (ix4 ((((cfg0.win 2).blk t).view.emb (ix4 a b w k)) 0) ((((cfg0.win 2).blk t).view.emb (ix4 a b w k)) 1)
          ((((cfg0.win 2).blk t).view.emb (ix4 a b w k)) 2) d) := by
    show V m c main_arg0 (((cfg0.win 0).blk t).view.emb (ix4 a b w d)) = _
    congr 1
    funext ax; apply Fin.ext
    match ax with
    | ⟨0, _⟩ => show win0_0.index t (0 : Fin 4) * 2 + 1 * a.val = win0_2.index t (0 : Fin 4) * 2 + 1 * a.val; omega
    | ⟨1, _⟩ => show win0_0.index t (1 : Fin 4) * 8 + 1 * b.val = win0_2.index t (1 : Fin 4) * 8 + 1 * b.val; omega
    | ⟨2, _⟩ => show win0_0.index t (2 : Fin 4) * 320 + 1 * w.val = win0_2.index t (2 : Fin 4) * 320 + 1 * w.val; omega
    | ⟨3, _⟩ => show win0_0.index t (3 : Fin 4) * 32 + 1 * d.val = d.val; omega
  -- the matrix block's entry (d, k) is the matrix's entry (d, k)
  have hM : (iblk m c 1 t : S32x64.Idx → EReal) (ix2 d k)
      = V m c main_v16 (ix2 d ((((cfg0.win 2).blk t).view.emb (ix4 a b w k)) 3)) := by
    show V m c main_v16 (((cfg0.win 1).blk t).view.emb (ix2 d k)) = _
    congr 1
    funext ax; apply Fin.ext
    match ax with
    | ⟨0, _⟩ => show win0_1.index t (0 : Fin 2) * 32 + 1 * d.val = d.val; omega
    | ⟨1, _⟩ => show win0_1.index t (1 : Fin 2) * 64 + 1 * k.val = win0_2.index t (3 : Fin 4) * 64 + 1 * k.val; omega
  rw [hX, hM]

/-- An index of the output array is in point t's block iff each coordinate is in the block's range on its axis. -/
theorem mem_blk (t : Fin cfg0.N) (i : S16x160x320x64.Idx) :
    i ∈ ((cfg0.win 2).blk t).view.set ↔ ∀ a : Fin 4, win0_2.index t a * S2x8x320x64.size a ≤ (i a).val
      ∧ (i a).val < win0_2.index t a * S2x8x320x64.size a + S2x8x320x64.size a := by
  show i ∈ ((View.whole main_v17).slice (win0_2.rect t)).set ↔ _
  rw [View.set_slice_whole, Rect.mem_set_unit]
  exact Iff.rfl

/-- The blocks tile the output: index (i0, i1, i2, i3) is in the block of the point at block position (i0 / 2, i1 / 8). -/
theorem cover (i : S16x160x320x64.Idx) :
    ∃ t : Fin cfg0.N, (cfg0.win 2).flush t = true ∧ i ∈ ((cfg0.win 2).blk t).view.set := by
  have hi0 : (i 0).val < 16 := (i 0).isLt
  have hi1 : (i 1).val < 160 := (i 1).isLt
  have hi2 : (i 2).val < 320 := (i 2).isLt
  have hi3 : (i 3).val < 64 := (i 3).isLt
  obtain ⟨t, ht⟩ := index_onto ⟨(i 0).val / 2, by omega⟩ ⟨(i 1).val / 8, by omega⟩
  have q0 : win0_2.index t (0 : Fin 4) = (i 0).val / 2 := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 2 ≤ (i 0).val ∧ (i 0).val < win0_2.index t (0 : Fin 4) * 2 + 2; omega
  | ⟨1, _⟩ => show win0_2.index t (1 : Fin 4) * 8 ≤ (i 1).val ∧ (i 1).val < win0_2.index t (1 : Fin 4) * 8 + 8; omega
  | ⟨2, _⟩ => show win0_2.index t (2 : Fin 4) * 320 ≤ (i 2).val ∧ (i 2).val < win0_2.index t (2 : Fin 4) * 320 + 320; omega
  | ⟨3, _⟩ => show win0_2.index t (3 : Fin 4) * 64 ≤ (i 3).val ∧ (i 3).val < win0_2.index t (3 : Fin 4) * 64 + 64; omega

/-- The output array of the pallas_call after the run: every input row times the matrix. -/
theorem final (c : Dev nD) :
    (dats m 0 c).arrAt 2 cfg0.N = rowsTimes (V m c main_arg0) (V m c main_v16) :=
  (dats m 0 c).arrAt_eq_of_cover 2 _ (fun t _ => flushed_eq m c t) cover

end Cert.KernelIdeal.Blocks

end
-- ==== Proof.OneHotSum.lean ====
/-
  A sum against a one-hot column, over the extended reals.

  If  e  is the indicator of one position  d  (e_k = 1 for k = d, 0 elsewhere), then for any numbers  x_k  and any
  scale  u  the sum  Σ_k x_k · (e_k · u)  is the single term  x_d · u : every other term is  x_k · (0 · u) = x_k · 0 = 0 .
  The three laws used — 1 · u = u, 0 · u = 0, x · 0 = 0 — hold for every extended real, the infinities included, so
  nothing here asks x or u to be finite.
-/
import Idealize.ShloMosaic.PureOps.Ideal.Laws

open scoped BigOperators

namespace Cert.OneHot

/-- Σ_k x_k · (e_k · u) = x_d · u  when  e  is the indicator of  d . -/
theorem sum_mul_indicator {n : ℕ} (x e : Fin n → EReal) (d : Fin n) (u : EReal)
    (he : ∀ k, e k = if k = d then 1 else 0) :
    ∑ k : Fin n, x k * (e k * u) = x d * u := by
  -- only the term at d survives
  rw [Finset.sum_eq_single d]
  · rw [he d, if_pos rfl, one_mul]
  · intro k _ hk
    rw [he k, if_neg hk, zero_mul, mul_zero]
  · intro h
    exact absurd (Finset.mem_univ d) h

end Cert.OneHot
-- ==== Proof.KernelResult.lean ====
/-
  The kernel's result, as one function of its two arguments, over the extended reals.

  After the pallas_call the host reads its [16, 160, 320, 64] output row-major as [16, 160, 320, 32, 2]: entry
  (b, h, w, d, q) of the result is entry (b, h, w, 2d + q) of the output. The output holds every input row times the
  expansion matrix (KernelBlocks), whose column 2d + q is the one-hot column at d scaled by u[d, q] (KernelHost), so by the
  one-hot sum law (OneHotSum)
        result[b, h, w, d, q] = Σ_d' X[b, h, w, d'] · (E[d', d] · u[d, q]) = X[b, h, w, d] · u[d, q] ,
  with  u = β² / Σ_q β²  the row-normalised squares. No finiteness of X or β is used: the three laws behind the one-hot
  sum hold on all extended reals.
-/
import proofs.«159001_j87582973100612_1_alg».proof.Proof.Gen.KernelIdeal.Frame
import proofs.«159001_j87582973100612_1_alg».proof.Proof.KernelHost
import proofs.«159001_j87582973100612_1_alg».proof.Proof.KernelBlocks
import proofs.«159001_j87582973100612_1_alg».proof.Proof.OneHotSum
import Idealize.ShloMosaic.Lib.StableHlo.Run
import Idealize.ShloMosaic.Lib.Pipeline.Value
import Idealize.ShloMosaic.Lib.ValueIdx

noncomputable section

open scoped BigOperators

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The result as a function of the arguments: X[b, h, w, d] · u[d, q]. -/
def scaled (X : S16x160x320x32.Idx → EReal) (u : S32x2.Idx → EReal) : S16x160x320x32x2.Idx → EReal :=
  fun i => X (ix4 (i 0) (i 1) (i 2) (i 3)) * u (ix2 (i 3) (i 4))

/-- The host line after the pallas_call leaves, in the result buffer, the output array re-read as [16, 160, 320, 32, 2]. -/
theorem tail_eq (c : Dev nD) :
    Pipeline.afterTail₀ cfgs (dats m) 0 (V0 m) [hostOps1] c main_v18
      = shapeCast S16x160x320x32x2 ((dats m 0 c).arrAt 2 cfg0.N) shapeCasts_S16x160x320x64_S16x160x320x32x2 := by
  unfold Pipeline.afterTail₀
  show StableHlo.after hostOps1 _ (Proc.devRef .tc main_v18) = _
  after_results
  have hw := Pipeline.withArrays_arr spec0 launch0.win.arr_inj c (V0 m c) (fun w => (dats m 0 c).arrAt w cfg0.N) 2
  exact congrArg (fun A => shapeCast S16x160x320x32x2 A shapeCasts_S16x160x320x64_S16x160x320x32x2) hw

/-- The rows of  X  times the expansion of the identity by  u , re-read as [16, 160, 320, 32, 2], is  X[.., d] · u[d, q] :
    entry (b, h, w, d, q) is entry (b, h, w, 2d + q) of the product, the row (b, h, w) against the one-hot column at  d
    scaled by  u[d, q] . -/
theorem scaled_of_rowsTimes (X : S16x160x320x32.Idx → EReal) (u : FVec Ideal S32x2 .f32) :
    shapeCast S16x160x320x32x2 (Blocks.rowsTimes X (HostSide.expandMat HostSide.eyeMat u))
        shapeCasts_S16x160x320x64_S16x160x320x32x2
      = scaled X u := by
  funext i
  obtain ⟨b, h, w, d, q, rfl⟩ : ∃ (b : Fin 16) (h : Fin 160) (w : Fin 320) (d : Fin 32) (q : Fin 2), i = ix5 b h w d q :=
    ⟨i 0, i 1, i 2, i 3, i 4, eq_ix5 i⟩
  have hk : d.val * 2 + q.val < 64 := by have := d.isLt; have := q.isLt; omega
  refine (shapeCast_apply _ shapeCasts_S16x160x320x64_S16x160x320x32x2 (ix5 b h w d q) (ix4 b h w ⟨d.val * 2 + q.val, hk⟩) ?_).trans ?_
  · rw [Shape.rowMajor_val_four, Shape.rowMajor_val_five]
    show ((b.val * 160 + h.val) * 320 + w.val) * 64 + (d.val * 2 + q.val)
      = (((b.val * 160 + h.val) * 320 + w.val) * 32 + d.val) * 2 + q.val
    omega
  show (∑ d' : Fin 32, X (ix4 b h w d') * HostSide.expandMat HostSide.eyeMat u (ix2 d' ⟨d.val * 2 + q.val, hk⟩))
    = X (ix4 b h w d) * u (ix2 d q)
  rw [Finset.sum_congr rfl fun d' _ => congrArg (X (ix4 b h w d') * ·)
    (HostSide.expandMat_apply HostSide.eyeMat u d' d q ⟨d.val * 2 + q.val, hk⟩ rfl)]
  exact Cert.OneHot.sum_mul_indicator (fun d' => X (ix4 b h w d')) (fun d' => HostSide.eyeMat (ix2 d' d)) d
    (u (ix2 d q)) (fun d' => HostSide.eye_apply d' d)

/-- The result buffer after the run is  scaled X (normSq β) . -/
theorem result_eq (c : Dev nD) :
    Pipeline.afterTail₀ cfgs (dats m) 0 (V0 m) [hostOps1] c main_v18
      = scaled (m ((c : Thread nD τ).loc main_arg0)) (HostSide.normSq (m ((c : Thread nD τ).loc main_arg1))) := by
  rw [tail_eq, Blocks.final, V_main_arg0, HostSide.V_main_v16]
  exact scaled_of_rowsTimes _ _

/-- The kernel's run, read: every weakly fair execution terminates with the result buffer at  scaled X (normSq β)  and
    both arguments as launched. -/
theorem run : θ_run defs (onTc (τ := τ) (main (F := Ideal))) ⟨m, fun _ => 0, ρ⟩ fun r => ∀ c : Dev nD,
      r.2.mem ((c : Thread nD τ).loc main_v18)
        = scaled (m ((c : Thread nD τ).loc main_arg0)) (HostSide.normSq (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v18 (Pipeline.mem_restRefs_of main_v18 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Result

end
-- ==== Proof.RefResult.lean ====
/-
  The reference's result, read entry by entry over the extended reals.

  The reference forms  u = β² / Σ_q β²  with the same host lines as the kernel, gives the input a trailing axis of extent
  one, lays both out over [16, 160, 320, 32, 2] and multiplies: entry (b, h, w, d, q) of its result is
        X[b, h, w, d] · u[d, q] .
-/
import proofs.«159001_j87582973100612_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The reference's product at an index: the input at the four leading coordinates times  u  at the two trailing ones. -/
theorem product_apply (X : (⟨S16x160x320x32, .f32⟩ : BufTy).Contents (Elt Ideal)) (β : (⟨S32x2, .f32⟩ : BufTy).Contents (Elt Ideal))
    (i : S16x160x320x32x2.Idx) :
    val_main_v9 (F := Ideal) X β i
      = (X : S16x160x320x32.Idx → EReal) (ix4 (i 0) (i 1) (i 2) (i 3))
        * (val_main_v4 (F := Ideal) β : S32x2.Idx → EReal) (ix2 (i 3) (i 4)) := by
  rw [val_main_v9_apply, val_main_v7_apply, val_main_v5_apply, val_main_v8_apply, val_main_v6_apply]
  show (X : S16x160x320x32.Idx → EReal) _ * (val_main_v4 (F := Ideal) β : S32x2.Idx → EReal) _ = _
  have hx : idx_main_v5 (idx_main_v7 i) = ix4 (i 0) (i 1) (i 2) (i 3) :=
    funext fun a => Fin.ext (by match a with | ⟨0, _⟩ => rfl | ⟨1, _⟩ => rfl | ⟨2, _⟩ => rfl | ⟨3, _⟩ => rfl)
  have hu : idx_main_v6 (idx_main_v8 i) = ix2 (i 3) (i 4) :=
    funext fun a => Fin.ext (by match a with | ⟨0, _⟩ => rfl | ⟨1, _⟩ => rfl)
  rw [hx, hu]
  rfl

end Cert.ReferenceIdeal.RefValue

end
-- ==== Proof.Bridge.lean ====
/-
  The two programs compute one function.

  Both form  u = β² / Σ_q β²  by the same host lines, so the two terms for  u  are one term (`normSq_eq`): whatever value a
  row of  β  that is all zeros gives the quotient, it gives it on both sides. The reference multiplies the input by  u
  entry by entry; the kernel multiplies the input's rows by the expansion matrix of  u , which comes to the same product
  by the one-hot sum law (KernelResult). So the reference's result term is the kernel's (`result_eq`).
-/
import proofs.«159001_j87582973100612_1_alg».proof.Proof.KernelResult
import proofs.«159001_j87582973100612_1_alg».proof.Proof.RefResult

noncomputable section

namespace Cert.Bridge

open Idealize.ShloMosaic Idealize.ShloMosaic.ValueIdx

/-- The kernel's  u  and the reference's  u  are the same lines applied to the same  β . -/
theorem normSq_eq (β : FVec Ideal Cert.KernelIdeal.S32x2 .f32) :
    Cert.KernelIdeal.HostSide.normSq β = Cert.ReferenceIdeal.Read.val_main_v4 (F := Ideal) β := rfl

/-- The reference's result is the kernel's: X[b, h, w, d] · u[d, q] at every entry. -/
theorem result_eq (X : FVec Ideal Cert.KernelIdeal.S16x160x320x32 .f32) (β : FVec Ideal Cert.KernelIdeal.S32x2 .f32) :
    Cert.ReferenceIdeal.Read.val_main_v9 (F := Ideal) X β
      = Cert.KernelIdeal.Result.scaled X (Cert.KernelIdeal.HostSide.normSq β) := by
  funext i
  rw [Cert.ReferenceIdeal.RefValue.product_apply, normSq_eq]
  rfl

end Cert.Bridge

end
-- ==== Proof.lean ====
/-
  The certificate: a broadcast multiply done as a matrix product.

  Reference:  out[b, h, w, d, q] = X[b, h, w, d] · u[d, q]  with  u = β² / Σ_q β²  (row-normalised squares of β : [32, 2]).
  Kernel: the same  u , flattened to 64 numbers and spread over a 32 × 64 matrix  M[d', 2d + q] = E[d', d] · u[d, q]
  (E the 32 × 32 identity); each [2, 8, 320, 32] block of  X  is read as 5120 rows and multiplied by  M  on the matrix
  unit, and the [16, 160, 320, 64] product is re-read as [16, 160, 320, 32, 2].

  Over the extended reals the product's entry is  Σ_d' X[.., d'] · (E[d', d] · u[d, q]) , and since  1 · u = u ,
  0 · u = 0  and  x · 0 = 0  hold for EVERY extended real, all terms but  d' = d  vanish and the sum is
  X[.., d] · u[d, q] : the reference's entry. Finiteness of the inputs is not needed, and a row of  β  that is all
  zeros (where the quotient 0/0 takes the instance's fixed value) is covered too, because  u  is the same term on both
  sides.

  The three frames: the kernel's two are the generated frame certificates; the reference's is its generated run with
  the result dropped. The idealization rewrote nothing, so `preserves` is trivial.
  Modules: OneHotSum (the sum law), KernelHost (u, E and M entry by entry), KernelPayload (one block's product),
  LibDense (a plain matrix product at an entry), KernelBlocks (blocks to the whole array), KernelResult (the re-read
  result and the kernel's run), RefResult (the reference at an entry), Bridge (the two terms are one function).
-/
import proofs.«159001_j87582973100612_1_alg».proof.Defs
import proofs.«159001_j87582973100612_1_alg».proof.Proof.Gen.Kernel
import proofs.«159001_j87582973100612_1_alg».proof.Proof.Gen.Kernel.Skeleton
import proofs.«159001_j87582973100612_1_alg».proof.Proof.Gen.Kernel.Launch
import proofs.«159001_j87582973100612_1_alg».proof.Proof.Gen.Kernel.Points
import proofs.«159001_j87582973100612_1_alg».proof.Proof.Gen.Kernel.Frame
import proofs.«159001_j87582973100612_1_alg».proof.Proof.Gen.KernelIdeal
import proofs.«159001_j87582973100612_1_alg».proof.Proof.Gen.KernelIdeal.Skeleton
import proofs.«159001_j87582973100612_1_alg».proof.Proof.Gen.KernelIdeal.Launch
import proofs.«159001_j87582973100612_1_alg».proof.Proof.Gen.KernelIdeal.Points
import proofs.«159001_j87582973100612_1_alg».proof.Proof.Gen.KernelIdeal.Frame
import proofs.«159001_j87582973100612_1_alg».proof.Proof.Gen.ReferenceIdeal
import proofs.«159001_j87582973100612_1_alg».proof.Proof.Gen.Pre_finite_inputs
import proofs.«159001_j87582973100612_1_alg».proof.Proof.Gen.ReferenceIdeal.Run
import proofs.«159001_j87582973100612_1_alg».proof.Proof.Gen.ReferenceIdeal.Read
import proofs.«159001_j87582973100612_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at  X[b, h, w, d] · u[d, q] : the kernel's by its run read back (KernelResult), the
    reference's by its generated run, whose term is the same function of the agreeing arguments (Bridge). -/
theorem algebraic : Cert.algebraic_KernelIdeal_ReferenceIdeal := by
  intro m ρ m' ρ' _ hagree
  refine ⟨fun c => Cert.KernelIdeal.Result.scaled
      (m ((c.tc : Thread Cert.KernelIdeal.nD Cert.KernelIdeal.τ).loc Cert.KernelIdeal.main_arg0))
      (Cert.KernelIdeal.HostSide.normSq (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v9_eq]
  exact Cert.Bridge.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
